-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S1000000 : Shape := ⟨1, ![1000000]⟩
abbrev S65x64 : Shape := ⟨2, ![65, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S65x64 : S_.BroadcastsInDim S65x64 (![] : Fin 0 → Fin S65x64.rank)
  reducesTo_S65x64_S_d0_1 : S65x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S65x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S65x64 .f32 := Host.absf main_arg5
  let main_cst_6 : FVec F S_ .f32 := constant S_ .f32 0x7F800000#32
  let main_v20 : FVec F S65x64 .f32 := broadcastInDim S65x64 ![] bcast_S_S65x64 main_cst_6
  let main_v21 : IVec S65x64 1 := cmpf .olt main_v19 main_v20
  let main_c_7 : IVec S_ 1 := constantI S_ 1 1#1
  let main_v22 : IVec S_ 1 := (fun x v => Host.reduce IntOp.andi x v reducesTo_S65x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : IVec S2x1000000 32) (main_arg2 : FVec F S1000000 .f32) (main_arg3 : FVec F S65x64 .f32) (main_arg4 : FVec F S64 .f32) (main_arg5 : FVec F S65x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000 .f32 := Host.absf main_arg2
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S65x64 .f32 := Host.absf main_arg3
  let main_cst_2 : FVec F S_ .f32 := constant S_ .f32 0x7F800000#32
  let main_v10 : FVec F S65x64 .f32 := broadcastInDim S65x64 ![] bcast_S_S65x64 main_cst_2
  let main_v11 : IVec S65x64 1 := cmpf .olt main_v9 main_v10
  let main_c_3 : IVec S_ 1 := constantI S_ 1 1#1
  let main_v12 : IVec S_ 1 := (fun x v => Host.reduce IntOp.andi x v reducesTo_S65x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x64 : Shape := ⟨2, ![100000, 64]⟩
abbrev S2x1000000 : Shape := ⟨2, ![2, 1000000]⟩
abbrev S1000000 : Shape := ⟨1, ![1000000]⟩
abbrev S65x64 : Shape := ⟨2, ![65, 64]⟩
abbrev S64 : Shape := ⟨1, ![64]⟩
abbrev S1x1000000 : Shape := ⟨2, ![1, 1000000]⟩
abbrev S_ : Shape := ⟨0, ![]⟩
abbrev S1000000x1 : Shape := ⟨2, ![1000000, 1]⟩
abbrev S1000000x64 : Shape := ⟨2, ![1000000, 64]⟩
abbrev S64x64 : Shape := ⟨2, ![64, 64]⟩
abbrev S1x64 : Shape := ⟨2, ![1, 64]⟩
abbrev S8000x64 : Shape := ⟨2, ![8000, 64]⟩
abbrev S8000x1 : Shape := ⟨2, ![8000, 1]⟩
abbrev S100000 : Shape := ⟨1, ![100000]⟩
abbrev S100000x1 : Shape := ⟨2, ![100000, 1]⟩

abbrev nBuf : Space → Nat
  | .hbm => 81
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000, .f32⟩
  | .hbm, ⟨3, _⟩ => ⟨S65x64, .f32⟩
  | .hbm, ⟨4, _⟩ => ⟨S64, .f32⟩
  | .hbm, ⟨5, _⟩ => ⟨S65x64, .f32⟩
  | .hbm, ⟨6, _⟩ => ⟨S64, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1000000x64, .f32⟩
  | .hbm, ⟨20, _⟩ => ⟨S1000000x1, .f32⟩
  | .hbm, ⟨21, _⟩ => ⟨S64x64, .f32⟩
  | .hbm, ⟨22, _⟩ => ⟨S1x64, .f32⟩
  | .hbm, ⟨23, _⟩ => ⟨S1x64, .f32⟩
  | .hbm, ⟨24, _⟩ => ⟨S1000000x64, .f32⟩
  | .hbm, ⟨25, _⟩ => ⟨S_, .f32⟩
  | .hbm, ⟨26, _⟩ => ⟨S100000x64, .f32⟩
  | .hbm, ⟨27, _⟩ => ⟨S1000000x1, .i32⟩
  | .hbm, ⟨28, _⟩ => ⟨S100000x64, .f32⟩
  | .hbm, ⟨29, _⟩ => ⟨S_, .f32⟩
  | .hbm, ⟨30, _⟩ => ⟨S1000000, .f32⟩
  | .hbm, ⟨31, _⟩ => ⟨S_, .f32⟩
  | .hbm, ⟨32, _⟩ => ⟨S100000, .f32⟩
  | .hbm, ⟨33, _⟩ => ⟨S1000000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S_, .f32⟩
  | .hbm, ⟨42, _⟩ => ⟨S100000x64, .f32⟩
  | .hbm, ⟨43, _⟩ => ⟨S100000x64, .f32⟩
  | .hbm, ⟨44, _⟩ => ⟨S1x1000000, .i32⟩
  | .hbm, ⟨45, _⟩ => ⟨S1000000, .i32⟩
  | .hbm, ⟨46, _⟩ => ⟨S1x1000000, .i32⟩
  | .hbm, ⟨47, _⟩ => ⟨S1000000, .i32⟩
  | .hbm, ⟨48, _⟩ => ⟨S_, .i32⟩
  | .hbm, ⟨49, _⟩ => ⟨S1000000, .i32⟩
  | .hbm, ⟨50, _⟩ => ⟨S1000000, .i1⟩
  | .hbm, ⟨51, _⟩ => ⟨S_, .i32⟩
  | .hbm, ⟨52, _⟩ => ⟨S1000000, .i32⟩
  | .hbm, ⟨53, _⟩ => ⟨S1000000, .i32⟩
  | .hbm, ⟨54, _⟩ => ⟨S1000000, .i32⟩
  | .hbm, ⟨55, _⟩ => ⟨S1000000x1, .i32⟩
  | .hbm, ⟨56, _⟩ => ⟨S1000000x64, .f32⟩
  | .hbm, ⟨57, _⟩ => ⟨S1000000x1, .f32⟩
  | .hbm, ⟨58, _⟩ => ⟨S64x64, .f32⟩
  | .hbm, ⟨59, _⟩ => ⟨S1x64, .f32⟩
  | .hbm, ⟨60, _⟩ => ⟨S1x64, .f32⟩
  | .hbm, ⟨61, _⟩ => ⟨S1000000x64, .f32⟩
  | .hbm, ⟨62, _⟩ => ⟨S_, .f32⟩
  | .hbm, ⟨63, _⟩ => ⟨S100000x64, .f32⟩
  | .hbm, ⟨64, _⟩ => ⟨S1000000x1, .i32⟩
  | .hbm, ⟨65, _⟩ => ⟨S100000x64, .f32⟩
  | .hbm, ⟨66, _⟩ => ⟨S_, .f32⟩
  | .hbm, ⟨67, _⟩ => ⟨S1000000, .f32⟩
  | .hbm, ⟨68, _⟩ => ⟨S_, .f32⟩
  | .hbm, ⟨69, _⟩ => ⟨S100000, .f32⟩
  | .hbm, ⟨70, _⟩ => ⟨S1000000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S100000x64, .f32⟩
  | .hbm, ⟨80, _⟩ => ⟨S100000x64, .f32⟩
  | .local _ .vmem, ⟨0, _⟩ => ⟨S8000x64, .f32⟩
  | .local _ .vmem, ⟨1, _⟩ => ⟨S8000x64, .f32⟩
  | .local _ .vmem, ⟨2, _⟩ => ⟨S8000x1, .f32⟩
  | .local _ .vmem, ⟨3, _⟩ => ⟨S8000x1, .f32⟩
  | .local _ .vmem, ⟨4, _⟩ => ⟨S64x64, .f32⟩
  | .local _ .vmem, ⟨5, _⟩ => ⟨S1x64, .f32⟩
  | .local _ .vmem, ⟨6, _⟩ => ⟨S1x64, .f32⟩
  | .local _ .vmem, ⟨7, _⟩ => ⟨S8000x64, .f32⟩
  | .local _ .vmem, ⟨8, _⟩ => ⟨S8000x64, .f32⟩
  | .local _ .vmem, ⟨9, _⟩ => ⟨S8000x64, .f32⟩
  | .local _ .vmem, ⟨10, _⟩ => ⟨S8000x64, .f32⟩
  | .local _ .vmem, ⟨11, _⟩ => ⟨S8000x1, .f32⟩
  | .local _ .vmem, ⟨12, _⟩ => ⟨S8000x1, .f32⟩
  | .local _ .vmem, ⟨13, _⟩ => ⟨S64x64, .f32⟩
  | .local _ .vmem, ⟨14, _⟩ => ⟨S1x64, .f32⟩
  | .local _ .vmem, ⟨15, _⟩ => ⟨S1x64, .f32⟩
  | .local _ .vmem, ⟨16, _⟩ => ⟨S8000x64, .f32⟩
  | .local _ .vmem, ⟨17, _⟩ => ⟨S8000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_cst : Ref sig .tc := ⟨.hbm, 41, rfl⟩
abbrev main_call0_v0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_4 : Ref sig .tc := ⟨.hbm, 48, rfl⟩
abbrev main_v33 : Ref sig .tc := ⟨.hbm, 49, rfl⟩
abbrev main_v34 : Ref sig .tc := ⟨.hbm, 50, rfl⟩
abbrev main_c_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_call1_cst : Ref sig .tc := ⟨.hbm, 78, rfl⟩
abbrev main_call1_v0 : Ref sig .tc := ⟨.hbm, 79, rfl⟩
abbrev main_v57 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S1000000_S1000000x1 : S1000000.ShapeCasts S1000000x1
  slices_S65x64_S64x64_0_0 : S65x64.Slices ![0, 0] S64x64
  slices_S65x64_S1x64_64_0 : S65x64.Slices ![64, 0] S1x64
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S8000x1_S8000x64 : S8000x1.Broadcasts S8000x64
  broadcasts_S1x64_S8000x64 : S1x64.Broadcasts S8000x64
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  dot_S8000x64_S64x64_S8000x64_1_0_0_1_n_n_wf : DotDims.WF S8000x64 S64x64 S8000x64 [1] [0] [0] [1] [] []
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1000000x64.size a
  hwx0_0 : ∀ i : grid0.Coords, EltTy.bits .f32 = 32 ∨ (Rect.block (s := S1000000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S1000000x1.size a
  hwx0_1 : ∀ i : grid0.Coords, EltTy.bits .f32 = 32 ∨ (Rect.block (s := S1000000x1) S8000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x64.size a ≤ S1000000x64.size a
  hwx0_5 : ∀ i : grid0.Coords, EltTy.bits .f32 = 32 ∨ (Rect.block (s := S1000000x64) S8000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1000000x64.size a
  hwx1_0 : ∀ i : grid1.Coords, EltTy.bits .f32 = 32 ∨ (Rect.block (s := S1000000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1000000x1.size a
  hwx1_1 : ∀ i : grid1.Coords, EltTy.bits .f32 = 32 ∨ (Rect.block (s := S1000000x1) S8000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x64.size a ≤ S1000000x64.size a
  hwx1_5 : ∀ i : grid1.Coords, EltTy.bits .f32 = 32 ∨ (Rect.block (s := S1000000x64) S8000x64.size (cc1_transform_5 i) (hinb1_5 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf

abbrev win0_0 : Pipeline.Window sig grid0 :=
  Pipeline.Window.ofSpec (Memref.whole main_v10) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S8000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S8000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S1000000 : Shape := ⟨1, ![1000000]⟩
abbrev S65x64 : Shape := ⟨2, ![65, 64]⟩
abbrev S64 : Shape := ⟨1, ![64]⟩
abbrev S1x1000000 : Shape := ⟨2, ![1, 1000000]⟩
abbrev S_ : Shape := ⟨0, ![]⟩
abbrev S1000000x1 : Shape := ⟨2, ![1000000, 1]⟩
abbrev S1000000x64 : Shape := ⟨2, ![1000000, 64]⟩
abbrev S1000000x65 : Shape := ⟨2, ![1000000, 65]⟩
abbrev S1x64 : Shape := ⟨2, ![1, 64]⟩
abbrev S100000 : Shape := ⟨1, ![100000]⟩
abbrev S100000x1 : Shape := ⟨2, ![100000, 1]⟩

abbrev nBuf : Space → Nat
  | .hbm => 89
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000, .f32⟩
  | .hbm, ⟨3, _⟩ => ⟨S65x64, .f32⟩
  | .hbm, ⟨4, _⟩ => ⟨S64, .f32⟩
  | .hbm, ⟨5, _⟩ => ⟨S65x64, .f32⟩
  | .hbm, ⟨6, _⟩ => ⟨S64, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1000000x64, .f32⟩
  | .hbm, ⟨20, _⟩ => ⟨S1000000x1, .f32⟩
  | .hbm, ⟨21, _⟩ => ⟨S1000000x65, .f32⟩
  | .hbm, ⟨22, _⟩ => ⟨S1000000x64, .f32⟩
  | .hbm, ⟨23, _⟩ => ⟨S1x64, .f32⟩
  | .hbm, ⟨24, _⟩ => ⟨S1000000x64, .f32⟩
  | .hbm, ⟨25, _⟩ => ⟨S1000000x64, .f32⟩
  | .hbm, ⟨26, _⟩ => ⟨S_, .f32⟩
  | .hbm, ⟨27, _⟩ => ⟨S1000000x64, .f32⟩
  | .hbm, ⟨28, _⟩ => ⟨S1000000x64, .f32⟩
  | .hbm, ⟨29, _⟩ => ⟨S_, .f32⟩
  | .hbm, ⟨30, _⟩ => ⟨S100000x64, .f32⟩
  | .hbm, ⟨31, _⟩ => ⟨S1000000x1, .i32⟩
  | .hbm, ⟨32, _⟩ => ⟨S100000x64, .f32⟩
  | .hbm, ⟨33, _⟩ => ⟨S_, .f32⟩
  | .hbm, ⟨34, _⟩ => ⟨S1000000, .f32⟩
  | .hbm, ⟨35, _⟩ => ⟨S_, .f32⟩
  | .hbm, ⟨36, _⟩ => ⟨S100000, .f32⟩
  | .hbm, ⟨37, _⟩ => ⟨S1000000x1, .i32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S1x1000000, .i32⟩
  | .hbm, ⟨49, _⟩ => ⟨S1000000, .i32⟩
  | .hbm, ⟨50, _⟩ => ⟨S1x1000000, .i32⟩
  | .hbm, ⟨51, _⟩ => ⟨S1000000, .i32⟩
  | .hbm, ⟨52, _⟩ => ⟨S_, .i32⟩
  | .hbm, ⟨53, _⟩ => ⟨S1000000, .i32⟩
  | .hbm, ⟨54, _⟩ => ⟨S1000000, .i1⟩
  | .hbm, ⟨55, _⟩ => ⟨S_, .i32⟩
  | .hbm, ⟨56, _⟩ => ⟨S1000000, .i32⟩
  | .hbm, ⟨57, _⟩ => ⟨S1000000, .i32⟩
  | .hbm, ⟨58, _⟩ => ⟨S1000000, .i32⟩
  | .hbm, ⟨59, _⟩ => ⟨S1000000x1, .i32⟩
  | .hbm, ⟨60, _⟩ => ⟨S1000000x64, .f32⟩
  | .hbm, ⟨61, _⟩ => ⟨S1000000x1, .f32⟩
  | .hbm, ⟨62, _⟩ => ⟨S1000000x65, .f32⟩
  | .hbm, ⟨63, _⟩ => ⟨S1000000x64, .f32⟩
  | .hbm, ⟨64, _⟩ => ⟨S1x64, .f32⟩
  | .hbm, ⟨65, _⟩ => ⟨S1000000x64, .f32⟩
  | .hbm, ⟨66, _⟩ => ⟨S1000000x64, .f32⟩
  | .hbm, ⟨67, _⟩ => ⟨S_, .f32⟩
  | .hbm, ⟨68, _⟩ => ⟨S1000000x64, .f32⟩
  | .hbm, ⟨69, _⟩ => ⟨S1000000x64, .f32⟩
  | .hbm, ⟨70, _⟩ => ⟨S_, .f32⟩
  | .hbm, ⟨71, _⟩ => ⟨S100000x64, .f32⟩
  | .hbm, ⟨72, _⟩ => ⟨S1000000x1, .i32⟩
  | .hbm, ⟨73, _⟩ => ⟨S100000x64, .f32⟩
  | .hbm, ⟨74, _⟩ => ⟨S_, .f32⟩
  | .hbm, ⟨75, _⟩ => ⟨S1000000, .f32⟩
  | .hbm, ⟨76, _⟩ => ⟨S_, .f32⟩
  | .hbm, ⟨77, _⟩ => ⟨S100000, .f32⟩
  | .hbm, ⟨78, _⟩ => ⟨S1000000x1, .i32⟩
  | .hbm, ⟨79, _⟩ => ⟨S100000, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S100000x1, .f32⟩
  | .hbm, ⟨84, _⟩ => ⟨S100000x64, .f32⟩
  | .hbm, ⟨85, _⟩ => ⟨S100000x64, .f32⟩
  | .hbm, ⟨86, _⟩ => ⟨S_, .f32⟩
  | .hbm, ⟨87, _⟩ => ⟨S100000x64, .f32⟩
  | .hbm, ⟨88, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call1_cst : Ref sig .tc := ⟨.hbm, 45, rfl⟩
abbrev main_call1_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_4 : Ref sig .tc := ⟨.hbm, 52, rfl⟩
abbrev main_v35 : Ref sig .tc := ⟨.hbm, 53, rfl⟩
abbrev main_v36 : Ref sig .tc := ⟨.hbm, 54, rfl⟩
abbrev main_c_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call2_cst : Ref sig .tc := ⟨.hbm, 67, rfl⟩
abbrev main_call2_v0 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call3_cst : Ref sig .tc := ⟨.hbm, 86, rfl⟩
abbrev main_call3_v0 : Ref sig .tc := ⟨.hbm, 87, rfl⟩
abbrev main_v61 : Ref sig .tc := ⟨.hbm, 88, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x1_S1000000x65_d1 : Shape.Concatenates [S1000000x64, S1000000x1] S1000000x65 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  dot_S1000000x65_S65x64_S1000000x64_1_0_0_1_n_n_wf : DotDims.WF S1000000x65 S65x64 S1000000x64 [1] [0] [0] [1] [] []
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x65_S65x64_S1000000x64_1_0_0_1_n_n : DotDims S1000000x65 S65x64 S1000000x64 where
  lhsContracting := [1]
  rhsContracting := [0]
  lhsNonContracting := [0]
  rhsNonContracting := [1]
  lhsBatch := []
  rhsBatch := []
  wf := dot_S1000000x65_S65x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf

class Facts : Prop extends Facts₀ where

variable [Facts]
-- ==== Proof.LibPlainDot.lean ====
/-
  A plain two-dimensional contraction read at one element over the extended reals.

  For the dimension numbers of an [M, K] by [K, N] product (the left operand's axis 1 contracted against the right
  operand's axis 0, no batch axis), entry (p, q) of the product is the sum over k of lhs (p, k) · rhs (k, q). This holds
  of a kernel's matrix product into a zero accumulator and of the host's dot_general alike, whatever the precision
  attribute: at the extended reals both are the textbook contraction. Generic in the three extents.
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.plain M K N).contr.Idx) :
    ((DotDims.plain M K N).lhsIdx i r 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Axis 1 of the left operand is the contracted one: it reads the contraction position. -/
theorem lhs_axis1 (i : (⟨2, ![M, N]⟩ : Shape).Idx) (r : (DotDims.plain M K N).contr.Idx) :
    ((DotDims.plain M K N).lhsIdx i r 1).val = (r ⟨0, Nat.one_pos⟩).val :=
  (DotDims.plain M K N).lhsIdx_val_of_single rfl i r

/-- Axis 0 of the right operand is the contracted one. -/
theorem rhs_axis0 (i : (⟨2, ![M, N]⟩ : Shape).Idx) (r : (DotDims.plain M K N).contr.Idx) :
    ((DotDims.plain M K N).rhsIdx i r 0).val = (r ⟨0, Nat.one_pos⟩).val :=
  (DotDims.plain M K N).rhsIdx_val_of_single rfl i r

/-- Axis 1 of the right operand is free: it reads the output's column coordinate. -/
theorem rhs_axis1 (i : (⟨2, ![M, N]⟩ : Shape).Idx) (r : (DotDims.plain M K N).contr.Idx) :
    ((DotDims.plain M K N).rhsIdx i r 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum over its one-axis index shape, re-indexed by that axis' coordinate: the sum over
    `k : Fin K` of lhs (p, k) · rhs (k, q). -/
theorem sum_eq (lhs : (⟨2, ![M, K]⟩ : Shape).Idx → EReal) (rhs : (⟨2, ![K, N]⟩ : Shape).Idx → EReal)
    (p : Fin M) (q : Fin N) :
    (∑ r : (DotDims.plain M K N).contr.Idx,
        lhs ((DotDims.plain M K N).lhsIdx (ix2 p q) r) * rhs ((DotDims.plain M K N).rhsIdx (ix2 p q) r))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_axis0 M K N _ _).trans hk
      | ⟨1, _⟩ => exact rhs_axis1 M K N _ _)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_eq M K N lhs rhs p q

end Cert.Lib.PlainDot

end
-- ==== Proof.Message.lean ====
/-
  The message of one graph layer, as a function of whole arrays.

  For an edge list of n rows, the message of edge p at output channel q is the ramp of

      sum over k < 64 of x (p, k) * wx (k, q)  +  ea (p, 0) * we (0, q)  +  b (0, q),

  where x holds the gathered source-node features, ea the edge attribute as a column, wx the first 64 rows of the
  layer's weight, we its last row and b the bias as a row. Row p of the result depends on row p of x and of ea only,
  so a block of consecutive rows of the result is the same function of the matching blocks of x and ea
  (`message_rows`).
-/
import Idealize.ShloMosaic.PureOps.Ideal.Laws
import Idealize.ShloMosaic.Lib.ValueIdx

noncomputable section

namespace Cert.Layer

open Idealize.ShloMosaic Idealize.ShloMosaic.ValueIdx

/-- The message array of n edges, entry by entry, over the extended reals. -/
def message {n : Nat} (x : (⟨2, ![n, 64]⟩ : Shape).Idx → EReal) (ea : (⟨2, ![n, 1]⟩ : Shape).Idx → EReal)
    (wx : (⟨2, ![64, 64]⟩ : Shape).Idx → EReal) (we b : (⟨2, ![1, 64]⟩ : Shape).Idx → EReal) :
    (⟨2, ![n, 64]⟩ : Shape).Idx → EReal := fun i =>
  max (((∑ k : Fin 64, x (ix2 (i 0) k) * wx (ix2 k (i 1))) + ea (ix2 (i 0) (0 : Fin 1)) * we (ix2 (0 : Fin 1) (i 1)))
        + b (ix2 (0 : Fin 1) (i 1)))
      (Ideal.ofBits .f32 0x00000000#32)

/-- The message at an index given by its two coordinates. -/
theorem message_apply {n : Nat} (x : (⟨2, ![n, 64]⟩ : Shape).Idx → EReal) (ea : (⟨2, ![n, 1]⟩ : Shape).Idx → EReal)
    (wx : (⟨2, ![64, 64]⟩ : Shape).Idx → EReal) (we b : (⟨2, ![1, 64]⟩ : Shape).Idx → EReal) (p : Fin n) (q : Fin 64) :
    message x ea wx we b (ix2 p q)
      = max (((∑ k : Fin 64, x (ix2 p k) * wx (ix2 k q)) + ea (ix2 p (0 : Fin 1)) * we (ix2 (0 : Fin 1) q))
          + b (ix2 (0 : Fin 1) q)) (Ideal.ofBits .f32 0x00000000#32) := rfl

/-- Rows r(p) of the big arrays read as a block, the three small operands read whole: the block's message at row p
    is the whole message at row r(p). -/
theorem message_rows {n N : Nat} (r : Fin n → Fin N)
    (x : (⟨2, ![n, 64]⟩ : Shape).Idx → EReal) (ea : (⟨2, ![n, 1]⟩ : Shape).Idx → EReal)
    (wx : (⟨2, ![64, 64]⟩ : Shape).Idx → EReal) (we b : (⟨2, ![1, 64]⟩ : Shape).Idx → EReal)
    (X : (⟨2, ![N, 64]⟩ : Shape).Idx → EReal) (EA : (⟨2, ![N, 1]⟩ : Shape).Idx → EReal)
    (WX : (⟨2, ![64, 64]⟩ : Shape).Idx → EReal) (WE B : (⟨2, ![1, 64]⟩ : Shape).Idx → EReal)
    (hx : ∀ p k, x (ix2 p k) = X (ix2 (r p) k)) (hea : ∀ p, ea (ix2 p (0 : Fin 1)) = EA (ix2 (r p) (0 : Fin 1)))
    (hwx : ∀ k q, wx (ix2 k q) = WX (ix2 k q)) (hwe : ∀ q, we (ix2 (0 : Fin 1) q) = WE (ix2 (0 : Fin 1) q))
    (hb : ∀ q, b (ix2 (0 : Fin 1) q) = B (ix2 (0 : Fin 1) q))
    (p : Fin n) (q : Fin 64) :
    message x ea wx we b (ix2 p q) = message X EA WX WE B (ix2 (r p) q) := by
  rw [message_apply, message_apply, hea p, hwe q, hb q]
  simp only [hx, hwx]

end Cert.Layer

end
-- ==== Proof.KernelBlock.lean ====
/-
  One block of messages, as the kernel body computes it.

  The body reads a block of 8000 rows of gathered features, the matching 8000 rows of the edge-attribute column, the
  64 x 64 weight, the one-row weight and the one-row bias. Over the extended reals the narrowing of the two matrix
  operands is the identity and the matrix product into a zero accumulator is the textbook contraction, so what it
  stores is the message function of those five blocks, entry by entry. Both launches run the same body.
-/
import proofs.«142209_j34368328303045_1_alg».proof.Proof.Gen.KernelIdeal.Skeleton
import proofs.«142209_j34368328303045_1_alg».proof.Proof.LibPlainDot
import proofs.«142209_j34368328303045_1_alg».proof.Proof.Message
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx Cert.Layer

/-- The body's contraction is the plain rows-by-columns one. -/
theorem dot_plain : dot_S8000x64_S64x64_S8000x64_1_0_0_1_n_n = DotDims.plain 8000 64 64 := rfl

/-- A column of 8000 entries spread along 64 lanes reads its row's entry. -/
theorem col_spread (v : (⟨2, ![8000, 1]⟩ : Shape).Idx → EReal) (h : (⟨2, ![8000, 1]⟩ : Shape).Broadcasts ⟨2, ![8000, 64]⟩)
    (p : Fin 8000) (q : Fin 64) : broadcastTo ⟨2, ![8000, 64]⟩ v h (ix2 p q) = v (ix2 p (0 : Fin 1)) := by
  refine broadcastTo_apply v h (ix2 p q) (ix2 p (0 : Fin 1)) fun ax => ?_
  match ax with
  | ⟨0, _⟩ =>
    show p.val = if (8000 : Nat) = 1 then 0 else p.val
    rw [if_neg (by decide)]
  | ⟨1, _⟩ => rfl

/-- What the first launch's body stores, from the five blocks it loads. -/
theorem pay0_eq (x0 : Vec Ideal S8000x64 .f32) (x2 : Vec Ideal S64x64 .f32) (x1 : Vec Ideal S8000x1 .f32)
    (x3 x4 : Vec Ideal S1x64 .f32) :
    k0_pay1 (F := Ideal) x0 x2 x1 x3 x4 = message x0 x1 x2 x3 x4 := by
  funext j
  obtain ⟨p, q, rfl⟩ : ∃ (p : Fin 8000) (q : Fin 64), j = ix2 p q := ⟨j 0, j 1, eq_ix2 j⟩
  rw [message_apply]
  unfold k0_pay1
  simp only [maximumf_apply, addf_apply, mulf_apply, broadcast_apply, shapeCast_self]
  rw [col_spread x1 _ p q, broadcastTo_1b_ab_apply x3 _ p q, broadcastTo_1b_ab_apply x4 _ p q, Ideal.ofBits_def]
  rw [dot_plain]
  simp only [matmul]
  rw [Cert.Lib.PlainDot.matmul_zero_apply 8000 64 64]
  simp only [truncf_apply]

/-- The second launch's body stores the same function of its blocks. -/
theorem pay1_eq (x0 : Vec Ideal S8000x64 .f32) (x2 : Vec Ideal S64x64 .f32) (x1 : Vec Ideal S8000x1 .f32)
    (x3 x4 : Vec Ideal S1x64 .f32) :
    k1_pay1 (F := Ideal) x0 x2 x1 x3 x4 = message x0 x1 x2 x3 x4 :=
  (show k1_pay1 (F := Ideal) x0 x2 x1 x3 x4 = k0_pay1 (F := Ideal) x0 x2 x1 x3 x4 from rfl).trans (pay0_eq x0 x2 x1 x3 x4)

end Cert.KernelIdeal.Block

end
-- ==== Proof.Region0.lean ====
/-
  What the launch of Region0 (numbering the program's two launches from 0) leaves in its output array.

  The launch walks 125 points; point t stages rows 8000 t .. 8000 t + 7999 of the gathered features and of the
  edge-attribute column, the three small operands whole, and writes back rows 8000 t .. 8000 t + 7999 of the output.
  The body stores the message function of its blocks (`Block.pay0_eq`), a row of the message depends on that row of
  the two long operands only (`message_rows`), and the 125 row blocks tile the million rows: so the array ends as
  the message function of the five arrays the launch was entered with.
-/
import proofs.«142209_j34368328303045_1_alg».proof.Proof.Gen.KernelIdeal.Frame
import proofs.«142209_j34368328303045_1_alg».proof.Proof.KernelBlock

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem Cert.Layer
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two long operands and the output sit at row block t, column block 0;
    the three small operands at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The message array of the launch's five operand arrays as it finds them. -/
def out (c : Dev nD) : S1000000x64.Idx → EReal :=
  message (V c main_v10) (V c main_v11) (V c main_v12) (V c main_v13) (V c main_v14)

/-- Row p of point t's blocks is row 8000 t + p of the arrays. -/
def row (t : Fin cfg0.N) (p : Fin 8000) : Fin 1000000 :=
  ⟨t.val * 8000 + p.val, by have ht : t.val < 125 := N_0 ▸ t.isLt; have := p.isLt; omega⟩

/-- What point t writes back is block t of the message array. -/
theorem flushed_eq (c : Dev nD) (t : Fin cfg0.N) :
    (dat0 V c).flushed 5 t = ((cfg0.win 5).blk t).view.read (Elt Ideal) (out V c) := by
  show (cfg0.win 5).cut (grid0.coords t) ((dat0 V c).after 5 t) = _
  rw [after0_5]
  unfold out0_5
  rw [View.canon_unit_zero hz]
  simp only [View.ld_unit_zero (S := S8000x64) hz, View.ld_unit_zero (S := S64x64) hz,
    View.ld_unit_zero (S := S8000x1) hz, View.ld_unit_zero (S := S1x64) hz]
  rw [Block.pay0_eq]
  obtain ⟨e00, e01, e10, e11, e20, e21, e30, e31, e40, e41, e50, e51⟩ := idx_facts t
  funext j
  obtain ⟨p, q, rfl⟩ : ∃ (p : Fin 8000) (q : Fin 64), j = ix2 p q := ⟨j 0, j 1, eq_ix2 j⟩
  have hemb : ((cfg0.win 5).blk t).view.emb (ix2 p q) = ix2 (row t p) q := by
    funext a; apply Fin.ext
    match a with
    | ⟨0, _⟩ => show win0_5.index t (0 : Fin 2) * 8000 + 1 * p.val = t.val * 8000 + p.val; omega
    | ⟨1, _⟩ => show win0_5.index t (1 : Fin 2) * 64 + 1 * q.val = q.val; omega
  show message (iblk0 V c 0 t) (iblk0 V c 1 t) (iblk0 V c 2 t) (iblk0 V c 3 t) (iblk0 V c 4 t) (ix2 p q)
    = out V c (((cfg0.win 5).blk t).view.emb (ix2 p q))
  rw [hemb]
  unfold out
  refine message_rows (row t) (iblk0 V c 0 t) (iblk0 V c 1 t) (iblk0 V c 2 t) (iblk0 V c 3 t) (iblk0 V c 4 t)
    (V c main_v10) (V c main_v11) (V c main_v12) (V c main_v13) (V c main_v14) ?_ ?_ ?_ ?_ ?_ p q
  · intro p k
    show V c main_v10 (((cfg0.win 0).blk t).view.emb (ix2 p k)) = V c main_v10 (ix2 (row t p) k)
    refine congrArg (V c main_v10) (funext fun a => Fin.ext ?_)
    match a with
    | ⟨0, _⟩ => show win0_0.index t (0 : Fin 2) * 8000 + 1 * p.val = t.val * 8000 + p.val; omega
    | ⟨1, _⟩ => show win0_0.index t (1 : Fin 2) * 64 + 1 * k.val = k.val; omega
  · intro p
    show V c main_v11 (((cfg0.win 1).blk t).view.emb (ix2 p (0 : Fin 1))) = V c main_v11 (ix2 (row t p) (0 : Fin 1))
    refine congrArg (V c main_v11) (funext fun a => Fin.ext ?_)
    match a with
    | ⟨0, _⟩ => show win0_1.index t (0 : Fin 2) * 8000 + 1 * p.val = t.val * 8000 + p.val; omega
    | ⟨1, _⟩ => show win0_1.index t (1 : Fin 2) * 1 + 1 * 0 = 0; omega
  · intro k q
    show V c main_v12 (((cfg0.win 2).blk t).view.emb (ix2 k q)) = V c main_v12 (ix2 k q)
    refine congrArg (V c main_v12) (funext fun a => Fin.ext ?_)
    match a with
    | ⟨0, _⟩ => show win0_2.index t (0 : Fin 2) * 64 + 1 * k.val = k.val; omega
    | ⟨1, _⟩ => show win0_2.index t (1 : Fin 2) * 64 + 1 * q.val = q.val; omega
  · intro q
    show V c main_v13 (((cfg0.win 3).blk t).view.emb (ix2 (0 : Fin 1) q)) = V c main_v13 (ix2 (0 : Fin 1) q)
    refine congrArg (V c main_v13) (funext fun a => Fin.ext ?_)
    match a with
    | ⟨0, _⟩ => show win0_3.index t (0 : Fin 2) * 1 + 1 * 0 = 0; omega
    | ⟨1, _⟩ => show win0_3.index t (1 : Fin 2) * 64 + 1 * q.val = q.val; omega
  · intro q
    show V c main_v14 (((cfg0.win 4).blk t).view.emb (ix2 (0 : Fin 1) q)) = V c main_v14 (ix2 (0 : Fin 1) q)
    refine congrArg (V c main_v14) (funext fun a => Fin.ext ?_)
    match a with
    | ⟨0, _⟩ => show win0_4.index t (0 : Fin 2) * 1 + 1 * 0 = 0; omega
    | ⟨1, _⟩ => show win0_4.index t (1 : Fin 2) * 64 + 1 * q.val = q.val; omega

/-- An index of the output array is in point t's block iff each coordinate is in the block's range on its axis. -/
theorem mem_blk (t : Fin cfg0.N) (i : S1000000x64.Idx) :
    i ∈ ((cfg0.win 5).blk t).view.set ↔ ∀ a : Fin 2, win0_5.index t a * S8000x64.size a ≤ (i a).val
      ∧ (i a).val < win0_5.index t a * S8000x64.size a + S8000x64.size a := by
  show i ∈ ((View.whole main_v15).slice (win0_5.rect t)).set ↔ _
  rw [View.set_slice_whole, Rect.mem_set_unit]
  exact Iff.rfl

/-- Every row of the output lies in the block of the point its row number divided by 8000 names. -/
theorem cover (i : S1000000x64.Idx) :
    ∃ t : Fin cfg0.N, (cfg0.win 5).flush t = true ∧ i ∈ ((cfg0.win 5).blk t).view.set := by
  have hi0 : (i 0).val < 1000000 := (i 0).isLt
  have hi1 : (i 1).val < 64 := (i 1).isLt
  have hN : cfg0.N = 125 := N_0
  have ht : (i 0).val / 8000 < cfg0.N := by rw [hN]; omega
  obtain ⟨-, -, -, -, -, -, -, -, -, -, e50, e51⟩ := idx_facts ⟨(i 0).val / 8000, ht⟩
  refine ⟨⟨(i 0).val / 8000, ht⟩, flush0_5 _, ?_⟩
  rw [mem_blk]
  intro a
  match a with
  | ⟨0, _⟩ =>
    show win0_5.index ⟨(i 0).val / 8000, ht⟩ (0 : Fin 2) * 8000 ≤ (i 0).val
      ∧ (i 0).val < win0_5.index ⟨(i 0).val / 8000, ht⟩ (0 : Fin 2) * 8000 + 8000
    rw [e50]; show (i 0).val / 8000 * 8000 ≤ (i 0).val ∧ (i 0).val < (i 0).val / 8000 * 8000 + 8000; omega
  | ⟨1, _⟩ =>
    show win0_5.index ⟨(i 0).val / 8000, ht⟩ (1 : Fin 2) * 64 ≤ (i 1).val
      ∧ (i 1).val < win0_5.index ⟨(i 0).val / 8000, ht⟩ (1 : Fin 2) * 64 + 64
    rw [e51]; omega

/-- The output array after the launch is the message array of the operand arrays at its entry. -/
theorem final (c : Dev nD) : (dat0 V c).arrAt 5 cfg0.N = out V c :=
  (dat0 V c).arrAt_eq_of_cover 5 (out V c) (fun t _ => flushed_eq V c t) cover

end Cert.KernelIdeal.Region0

end
-- ==== Proof.KernelLayer.lean ====
/-
  The kernel program, one graph layer at a time.

  Around each launch the program does on the host what the reference does: it gathers the input's rows at the edges'
  source nodes before the launch, and after it sums the launch's messages into their destination nodes, divides by the
  larger of the edge count and one and takes the ramp. What differs is how a launch's operands are cut: the edge attribute
  goes in as a column, the weight as its first 64 rows and its last row, the bias as a row. Reading the program's
  buffers boundary by boundary, the result array is this layer applied twice.
-/
import proofs.«142209_j34368328303045_1_alg».proof.Proof.Gen.KernelIdeal.Frame
import proofs.«142209_j34368328303045_1_alg».proof.Proof.Region0

set_option maxRecDepth 16384

noncomputable section

namespace Cert.KernelIdeal.Layer

open Cert.KernelIdeal Cert.KernelIdeal.Gen Idealize.ShloMosaic Idealize.ShloMosaic.TcCoe Idealize.SL.Sem

section Defs
variable {F : FTy → Type} [FloatOps F]

/-- The edges' destination node ids: row 1 of the edge list. -/
def dstIds (ei : (⟨S2x1000000, .i32⟩ : BufTy).Contents (Elt F)) : (⟨S1000000, .i32⟩ : BufTy).Contents (Elt F) :=
  shapeCast _ (extractStridedSlice S1x1000000 ![1, 0] ei slices_S2x1000000_S1x1000000_1_0) shapeCasts_S1x1000000_S1000000

/-- The edges' source node ids: row 0 of the edge list. -/
def srcIds (ei : (⟨S2x1000000, .i32⟩ : BufTy).Contents (Elt F)) : (⟨S1000000, .i32⟩ : BufTy).Contents (Elt F) :=
  shapeCast _ (extractStridedSlice S1x1000000 ![0, 0] ei slices_S2x1000000_S1x1000000_0_0) shapeCasts_S1x1000000_S1000000

/-- The rows of `h` at the source ids, a negative id first moved up by the number of nodes. -/
def srcRows (ei : (⟨S2x1000000, .i32⟩ : BufTy).Contents (Elt F)) (h : (⟨S100000x64, .f32⟩ : BufTy).Contents (Elt F)) : (⟨S1000000x64, .f32⟩ : BufTy).Contents (Elt F) :=
  Host.gather gather_S100000x64_S1000000x1_S1000000x64_1_0_n_n_0_1_164 h
    (broadcastInDim S1000000x1 ![0] bcast_S1000000_S1000000x1_0
      (select (cmpi .slt (srcIds (F := F) ei) (broadcastInDim S1000000 ![] bcast_S_S1000000 (constantI S_ 32 0#32)))
        (addi (srcIds (F := F) ei) (broadcastInDim S1000000 ![] bcast_S_S1000000 (constantI S_ 32 100000#32)))
        (srcIds (F := F) ei)))

/-- The ramp of a node array. -/
def reluOf (v : (⟨S100000x64, .f32⟩ : BufTy).Contents (Elt F)) : (⟨S100000x64, .f32⟩ : BufTy).Contents (Elt F) :=
  maximumf v (broadcastInDim S100000x64 ![] bcast_S_S100000x64 (constant S_ .f32 0x00000000#32))

/-- The messages summed into the nodes the ids name, each node's sum divided by the larger of its edge count and one. -/
def meanOf (dst : (⟨S1000000, .i32⟩ : BufTy).Contents (Elt F)) (msg : (⟨S1000000x64, .f32⟩ : BufTy).Contents (Elt F)) : (⟨S100000x64, .f32⟩ : BufTy).Contents (Elt F) :=
  Host.divf
    (Host.scatterAdd scatter_S100000x64_S1000000x1_S1000000x64_1_0_0_1
      (broadcastInDim S100000x64 ![] bcast_S_S100000x64 (constant S_ .f32 0x00000000#32))
      (broadcastInDim S1000000x1 ![0] bcast_S1000000_S1000000x1_0 dst) msg)
    (broadcastInDim S100000x64 ![0, 1] bcast_S100000x1_S100000x64_0_1 (broadcastInDim S100000x1 ![0] bcast_S100000_S100000x1_0
      (maximumf (Host.scatterAdd scatter_S100000_S1000000x1_S1000000_n_0_0_1
          (broadcastInDim S100000 ![] bcast_S_S100000 (constant S_ .f32 0x00000000#32))
          (broadcastInDim S1000000x1 ![0] bcast_S1000000_S1000000x1_0 dst)
          (broadcastInDim S1000000 ![] bcast_S_S1000000 (constant S_ .f32 0x3F800000#32)))
        (broadcastInDim S100000 ![] bcast_S_S100000 (constant S_ .f32 0x3F800000#32)))))

/-- The messages averaged at their destination nodes, then the ramp. -/
def meanRelu (ei : (⟨S2x1000000, .i32⟩ : BufTy).Contents (Elt F)) (msg : (⟨S1000000x64, .f32⟩ : BufTy).Contents (Elt F)) : (⟨S100000x64, .f32⟩ : BufTy).Contents (Elt F) :=
  reluOf (meanOf (dstIds (F := F) ei) msg)

end Defs

/-- The messages a launch leaves: the message function of the gathered rows, the edge attribute as a column, the
    weight's first 64 rows, its last row, and the bias as a row. -/
def messages (xs : (⟨S1000000x64, .f32⟩ : BufTy).Contents (Elt Ideal)) (ea : (⟨S1000000, .f32⟩ : BufTy).Contents (Elt Ideal))
    (w : (⟨S65x64, .f32⟩ : BufTy).Contents (Elt Ideal)) (b : (⟨S64, .f32⟩ : BufTy).Contents (Elt Ideal)) :
    (⟨S1000000x64, .f32⟩ : BufTy).Contents (Elt Ideal) :=
  Cert.Layer.message xs (shapeCast _ ea shapeCasts_S1000000_S1000000x1)
    (extractStridedSlice S64x64 ![0, 0] w slices_S65x64_S64x64_0_0)
    (extractStridedSlice S1x64 ![64, 0] w slices_S65x64_S1x64_64_0)
    (shapeCast _ b shapeCasts_S64_S1x64)

/-- One layer of the kernel program. -/
def layer (ei : (⟨S2x1000000, .i32⟩ : BufTy).Contents (Elt Ideal)) (ea : (⟨S1000000, .f32⟩ : BufTy).Contents (Elt Ideal))
    (h : (⟨S100000x64, .f32⟩ : BufTy).Contents (Elt Ideal)) (w : (⟨S65x64, .f32⟩ : BufTy).Contents (Elt Ideal))
    (b : (⟨S64, .f32⟩ : BufTy).Contents (Elt Ideal)) : (⟨S100000x64, .f32⟩ : BufTy).Contents (Elt Ideal) :=
  meanRelu ei (messages (srcRows ei h) ea w b)

variable (m : (ℓ : Loc nD τ sig) → Buf (Elt Ideal) ℓ) (ρ : Dev nD → PrngReg)

/-! ## Before the first launch -/

theorem V1_v10 (c : Dev nD) : V1 m ρ c main_v10 = srcRows (m ((c : Thread nD τ).loc main_arg1)) (m ((c : Thread nD τ).loc main_arg0)) := by
  dsimp only [V1, W1, hostOps0]
  after_results
  all_goals rfl
theorem V1_v11 (c : Dev nD) : V1 m ρ c main_v11 = shapeCast _ (m ((c : Thread nD τ).loc main_arg2)) shapeCasts_S1000000_S1000000x1 := by
  dsimp only [V1, W1, hostOps0]
  after_results
  all_goals rfl
theorem V1_v12 (c : Dev nD) : V1 m ρ c main_v12 = extractStridedSlice S64x64 ![0, 0] (m ((c : Thread nD τ).loc main_arg3)) slices_S65x64_S64x64_0_0 := by
  dsimp only [V1, W1, hostOps0]
  after_results
  all_goals rfl
theorem V1_v13 (c : Dev nD) : V1 m ρ c main_v13 = extractStridedSlice S1x64 ![64, 0] (m ((c : Thread nD τ).loc main_arg3)) slices_S65x64_S1x64_64_0 := by
  dsimp only [V1, W1, hostOps0]
  after_results
  all_goals rfl
theorem V1_v14 (c : Dev nD) : V1 m ρ c main_v14 = shapeCast _ (m ((c : Thread nD τ).loc main_arg4)) shapeCasts_S64_S1x64 := by
  dsimp only [V1, W1, hostOps0]
  after_results
  all_goals rfl
theorem W1_v3 (c : Dev nD) : W1 m ρ c (Proc.devRef .tc main_v3) = dstIds (m ((c : Thread nD τ).loc main_arg1)) := by
  dsimp only [W1, hostOps0]
  after_results
  all_goals rfl
theorem W1_arg1 (c : Dev nD) : W1 m ρ c (Proc.devRef .tc main_arg1) = (m ((c : Thread nD τ).loc main_arg1)) := by
  dsimp only [W1, hostOps0]
  after_results
  all_goals rfl
theorem W1_arg2 (c : Dev nD) : W1 m ρ c (Proc.devRef .tc main_arg2) = (m ((c : Thread nD τ).loc main_arg2)) := by
  dsimp only [W1, hostOps0]
  after_results
  all_goals rfl
theorem W1_arg5 (c : Dev nD) : W1 m ρ c (Proc.devRef .tc main_arg5) = (m ((c : Thread nD τ).loc main_arg5)) := by
  dsimp only [W1, hostOps0]
  after_results
  all_goals rfl
theorem W1_arg6 (c : Dev nD) : W1 m ρ c (Proc.devRef .tc main_arg6) = (m ((c : Thread nD τ).loc main_arg6)) := by
  dsimp only [W1, hostOps0]
  after_results
  all_goals rfl

/-! ## The first launch's output -/

theorem W2_v15 (c : Dev nD) :
    W2 m ρ c (Proc.devRef .tc main_v15) = messages (srcRows (m ((c : Thread nD τ).loc main_arg1)) (m ((c : Thread nD τ).loc main_arg0))) (m ((c : Thread nD τ).loc main_arg2)) (m ((c : Thread nD τ).loc main_arg3)) (m ((c : Thread nD τ).loc main_arg4)) := by
  refine (W2_arr m ρ c 5).trans ((Region0.final (V1 m ρ) c).trans ?_)
  unfold Region0.out messages
  rw [V1_v10, V1_v11, V1_v12, V1_v13, V1_v14]

end Cert.KernelIdeal.Layer

end
-- ==== Proof.KernelLayer2.lean ====
/-
  The kernel program between and after its two launches.

  The first launch's messages are averaged at their destination nodes and the ramp taken: that is the first layer's
  result. The second launch's operands are cut from it and from the second layer's weight and bias as the first
  launch's were from the input; its messages are averaged and the ramp taken again. So the program's result array is
  the layer applied twice.
-/
import proofs.«142209_j34368328303045_1_alg».proof.Proof.KernelLayer
import proofs.«142209_j34368328303045_1_alg».proof.Proof.Region1

set_option maxRecDepth 16384

noncomputable section

namespace Cert.KernelIdeal.Layer

open Cert.KernelIdeal Cert.KernelIdeal.Gen Idealize.ShloMosaic Idealize.ShloMosaic.TcCoe Idealize.SL.Sem

/-! ## The host stretches, from any contents -/

section Stages

variable (X : Valuation τ sig (Elt Ideal))

/-- After a launch: the messages in `main_v15` averaged at the destination ids in `main_v3`. -/
theorem mean0 : StableHlo.after hostOps1 X (Proc.devRef .tc main_v27) = meanOf (X (Proc.devRef .tc main_v3)) (X (Proc.devRef .tc main_v15)) := by
  dsimp only [hostOps1]
  after_results_simp
  all_goals rfl
/-- The outlined ramp. -/
theorem relu0 : StableHlo.after hostOps1_1 X (Proc.devRef .tc main_v28) = reluOf (X (Proc.devRef .tc main_v27)) := by
  dsimp only [hostOps1_1]
  after_results_simp
  all_goals rfl
theorem keep1_arg1 : StableHlo.after hostOps1 X (Proc.devRef .tc main_arg1) = (X (Proc.devRef .tc main_arg1)) := by
  dsimp only [hostOps1]
  after_results_simp
theorem keep1_1_arg1 : StableHlo.after hostOps1_1 X (Proc.devRef .tc main_arg1) = (X (Proc.devRef .tc main_arg1)) := by
  dsimp only [hostOps1_1]
  after_results_simp
theorem keep1_arg2 : StableHlo.after hostOps1 X (Proc.devRef .tc main_arg2) = (X (Proc.devRef .tc main_arg2)) := by
  dsimp only [hostOps1]
  after_results_simp
theorem keep1_1_arg2 : StableHlo.after hostOps1_1 X (Proc.devRef .tc main_arg2) = (X (Proc.devRef .tc main_arg2)) := by
  dsimp only [hostOps1_1]
  after_results_simp
theorem keep1_arg5 : StableHlo.after hostOps1 X (Proc.devRef .tc main_arg5) = (X (Proc.devRef .tc main_arg5)) := by
  dsimp only [hostOps1]
  after_results_simp
theorem keep1_1_arg5 : StableHlo.after hostOps1_1 X (Proc.devRef .tc main_arg5) = (X (Proc.devRef .tc main_arg5)) := by
  dsimp only [hostOps1_1]
  after_results_simp
theorem keep1_arg6 : StableHlo.after hostOps1 X (Proc.devRef .tc main_arg6) = (X (Proc.devRef .tc main_arg6)) := by
  dsimp only [hostOps1]
  after_results_simp
theorem keep1_1_arg6 : StableHlo.after hostOps1_1 X (Proc.devRef .tc main_arg6) = (X (Proc.devRef .tc main_arg6)) := by
  dsimp only [hostOps1_1]
  after_results_simp

/-- Before the second launch: its five operand arrays and the destination ids, cut from the first layer's result in
    `main_v28` and from the arguments. -/
theorem head1_v39 : StableHlo.after hostOps1_2 X (Proc.devRef .tc main_v39) = srcRows (X (Proc.devRef .tc main_arg1)) (X (Proc.devRef .tc main_v28)) := by
  dsimp only [hostOps1_2]
  after_results_simp
  all_goals rfl
theorem head1_v40 : StableHlo.after hostOps1_2 X (Proc.devRef .tc main_v40) = shapeCast _ (X (Proc.devRef .tc main_arg2)) shapeCasts_S1000000_S1000000x1 := by
  dsimp only [hostOps1_2]
  after_results_simp
  all_goals rfl
theorem head1_v41 : StableHlo.after hostOps1_2 X (Proc.devRef .tc main_v41) = extractStridedSlice S64x64 ![0, 0] (X (Proc.devRef .tc main_arg5)) slices_S65x64_S64x64_0_0 := by
  dsimp only [hostOps1_2]
  after_results_simp
  all_goals rfl
theorem head1_v42 : StableHlo.after hostOps1_2 X (Proc.devRef .tc main_v42) = extractStridedSlice S1x64 ![64, 0] (X (Proc.devRef .tc main_arg5)) slices_S65x64_S1x64_64_0 := by
  dsimp only [hostOps1_2]
  after_results_simp
  all_goals rfl
theorem head1_v43 : StableHlo.after hostOps1_2 X (Proc.devRef .tc main_v43) = shapeCast _ (X (Proc.devRef .tc main_arg6)) shapeCasts_S64_S1x64 := by
  dsimp only [hostOps1_2]
  after_results_simp
  all_goals rfl
theorem head1_v32 : StableHlo.after hostOps1_2 X (Proc.devRef .tc main_v32) = dstIds (X (Proc.devRef .tc main_arg1)) := by
  dsimp only [hostOps1_2]
  after_results_simp
  all_goals rfl

/-- After the second launch. -/
theorem mean1 : StableHlo.after hostOps2 X (Proc.devRef .tc main_v56) = meanOf (X (Proc.devRef .tc main_v32)) (X (Proc.devRef .tc main_v44)) := by
  dsimp only [hostOps2]
  after_results_simp
  all_goals rfl
theorem relu1 : StableHlo.after hostOps2_1 X (Proc.devRef .tc main_v57) = reluOf (X (Proc.devRef .tc main_v56)) := by
  dsimp only [hostOps2_1]
  after_results_simp
  all_goals rfl

end Stages

variable (m : (ℓ : Loc nD τ sig) → Buf (Elt Ideal) ℓ) (ρ : Dev nD → PrngReg)

/-! ## Between the launches -/

theorem W3_v27 (c : Dev nD) : W3 m ρ c (Proc.devRef .tc main_v27)
    = meanOf (dstIds (m ((c : Thread nD τ).loc main_arg1))) (messages (srcRows (m ((c : Thread nD τ).loc main_arg1)) (m ((c : Thread nD τ).loc main_arg0))) (m ((c : Thread nD τ).loc main_arg2)) (m ((c : Thread nD τ).loc main_arg3)) (m ((c : Thread nD τ).loc main_arg4))) :=
  (mean0 (W2 m ρ c)).trans (by rw [W2_of_ne m ρ c main_v3 (by decide), W1_v3, W2_v15])

/-- The first layer's result, which the second launch's gather reads. -/
theorem W4_v28 (c : Dev nD) :
    W4 m ρ c (Proc.devRef .tc main_v28) = layer (m ((c : Thread nD τ).loc main_arg1)) (m ((c : Thread nD τ).loc main_arg2)) (m ((c : Thread nD τ).loc main_arg0)) (m ((c : Thread nD τ).loc main_arg3)) (m ((c : Thread nD τ).loc main_arg4)) :=
  (relu0 (W3 m ρ c)).trans (by rw [W3_v27]; rfl)

theorem W4_arg1 (c : Dev nD) : W4 m ρ c (Proc.devRef .tc main_arg1) = (m ((c : Thread nD τ).loc main_arg1)) :=
  (keep1_1_arg1 (W3 m ρ c)).trans ((keep1_arg1 (W2 m ρ c)).trans ((W2_of_ne m ρ c main_arg1 (by decide)).trans (W1_arg1 m ρ c)))
theorem W4_arg2 (c : Dev nD) : W4 m ρ c (Proc.devRef .tc main_arg2) = (m ((c : Thread nD τ).loc main_arg2)) :=
  (keep1_1_arg2 (W3 m ρ c)).trans ((keep1_arg2 (W2 m ρ c)).trans ((W2_of_ne m ρ c main_arg2 (by decide)).trans (W1_arg2 m ρ c)))
theorem W4_arg5 (c : Dev nD) : W4 m ρ c (Proc.devRef .tc main_arg5) = (m ((c : Thread nD τ).loc main_arg5)) :=
  (keep1_1_arg5 (W3 m ρ c)).trans ((keep1_arg5 (W2 m ρ c)).trans ((W2_of_ne m ρ c main_arg5 (by decide)).trans (W1_arg5 m ρ c)))
theorem W4_arg6 (c : Dev nD) : W4 m ρ c (Proc.devRef .tc main_arg6) = (m ((c : Thread nD τ).loc main_arg6)) :=
  (keep1_1_arg6 (W3 m ρ c)).trans ((keep1_arg6 (W2 m ρ c)).trans ((W2_of_ne m ρ c main_arg6 (by decide)).trans (W1_arg6 m ρ c)))

/-! ## Before the second launch -/

theorem V5_v39 (c : Dev nD) : V5 m ρ c main_v39 = srcRows (m ((c : Thread nD τ).loc main_arg1)) (W4 m ρ c (Proc.devRef .tc main_v28)) :=
  (head1_v39 (W4 m ρ c)).trans (by rw [W4_arg1])
theorem V5_v40 (c : Dev nD) : V5 m ρ c main_v40 = shapeCast _ (m ((c : Thread nD τ).loc main_arg2)) shapeCasts_S1000000_S1000000x1 :=
  (head1_v40 (W4 m ρ c)).trans (by rw [W4_arg2])
theorem V5_v41 (c : Dev nD) : V5 m ρ c main_v41 = extractStridedSlice S64x64 ![0, 0] (m ((c : Thread nD τ).loc main_arg5)) slices_S65x64_S64x64_0_0 :=
  (head1_v41 (W4 m ρ c)).trans (by rw [W4_arg5])
theorem V5_v42 (c : Dev nD) : V5 m ρ c main_v42 = extractStridedSlice S1x64 ![64, 0] (m ((c : Thread nD τ).loc main_arg5)) slices_S65x64_S1x64_64_0 :=
  (head1_v42 (W4 m ρ c)).trans (by rw [W4_arg5])
theorem V5_v43 (c : Dev nD) : V5 m ρ c main_v43 = shapeCast _ (m ((c : Thread nD τ).loc main_arg6)) shapeCasts_S64_S1x64 :=
  (head1_v43 (W4 m ρ c)).trans (by rw [W4_arg6])
theorem W5_v32 (c : Dev nD) : W5 m ρ c (Proc.devRef .tc main_v32) = dstIds (m ((c : Thread nD τ).loc main_arg1)) :=
  (head1_v32 (W4 m ρ c)).trans (by rw [W4_arg1])

/-! ## The second launch's output -/

theorem W6_v44 (c : Dev nD) :
    W6 m ρ c (Proc.devRef .tc main_v44) = messages (srcRows (m ((c : Thread nD τ).loc main_arg1)) (W4 m ρ c (Proc.devRef .tc main_v28))) (m ((c : Thread nD τ).loc main_arg2)) (m ((c : Thread nD τ).loc main_arg5)) (m ((c : Thread nD τ).loc main_arg6)) := by
  refine (W6_arr m ρ c 5).trans ((Region1.final (V5 m ρ) c).trans ?_)
  unfold Region1.out messages
  rw [V5_v39, V5_v40, V5_v41, V5_v42, V5_v43]

/-! ## The result -/

theorem W7_v56 (c : Dev nD) : W7 m ρ c (Proc.devRef .tc main_v56)
    = meanOf (dstIds (m ((c : Thread nD τ).loc main_arg1))) (messages (srcRows (m ((c : Thread nD τ).loc main_arg1)) (W4 m ρ c (Proc.devRef .tc main_v28))) (m ((c : Thread nD τ).loc main_arg2)) (m ((c : Thread nD τ).loc main_arg5)) (m ((c : Thread nD τ).loc main_arg6))) :=
  (mean1 (W6 m ρ c)).trans (by rw [W6_of_ne m ρ c main_v32 (by decide), W5_v32, W6_v44])

/-- The result array at the last boundary is the layer applied twice. -/
theorem W8_v57 (c : Dev nD) :
    W8 m ρ c (Proc.devRef .tc main_v57)
      = layer (m ((c : Thread nD τ).loc main_arg1)) (m ((c : Thread nD τ).loc main_arg2)) (layer (m ((c : Thread nD τ).loc main_arg1)) (m ((c : Thread nD τ).loc main_arg2)) (m ((c : Thread nD τ).loc main_arg0)) (m ((c : Thread nD τ).loc main_arg3)) (m ((c : Thread nD τ).loc main_arg4))) (m ((c : Thread nD τ).loc main_arg5)) (m ((c : Thread nD τ).loc main_arg6)) :=
  (relu1 (W7 m ρ c)).trans (by rw [W7_v56, W4_v28]; rfl)

end Cert.KernelIdeal.Layer

end
-- ==== Proof.RefLayer.lean ====
/-
  The reference, one graph layer at a time.

  A layer gathers the rows of its input at the edges' source nodes (a negative id counted from the end), joins the edge
  attribute to each gathered row as a 65th column, multiplies by the 65 x 64 weight, adds the bias, takes the ramp,
  sums the resulting messages into their destination nodes, divides each node's sum by the larger of its number of
  incoming edges and one, and takes the ramp again. The reference is this layer applied twice, with the two layers'
  weights and biases; the generated run states its result as one term, which is that composition spelt out.
-/
import proofs.«142209_j34368328303045_1_alg».proof.Proof.Gen.ReferenceIdeal.Run

noncomputable section

namespace Cert.ReferenceIdeal.Layer

open Cert.ReferenceIdeal Cert.ReferenceIdeal.Gen Idealize.ShloMosaic Idealize.ShloMosaic.TcCoe Idealize.SL.Sem

variable {F : FTy → Type} [FloatOps F]

/-- The edges' destination node ids: row 1 of the edge list. -/
def dstIds (ei : (⟨S2x1000000, .i32⟩ : BufTy).Contents (Elt F)) : (⟨S1000000, .i32⟩ : BufTy).Contents (Elt F) :=
  shapeCast _ (extractStridedSlice S1x1000000 ![1, 0] ei slices_S2x1000000_S1x1000000_1_0) shapeCasts_S1x1000000_S1000000

/-- The edges' source node ids: row 0 of the edge list. -/
def srcIds (ei : (⟨S2x1000000, .i32⟩ : BufTy).Contents (Elt F)) : (⟨S1000000, .i32⟩ : BufTy).Contents (Elt F) :=
  shapeCast _ (extractStridedSlice S1x1000000 ![0, 0] ei slices_S2x1000000_S1x1000000_0_0) shapeCasts_S1x1000000_S1000000

/-- The rows of `h` at the source ids, a negative id first moved up by the number of nodes. -/
def srcRows (ei : (⟨S2x1000000, .i32⟩ : BufTy).Contents (Elt F)) (h : (⟨S100000x64, .f32⟩ : BufTy).Contents (Elt F)) : (⟨S1000000x64, .f32⟩ : BufTy).Contents (Elt F) :=
  Host.gather gather_S100000x64_S1000000x1_S1000000x64_1_0_n_n_0_1_164 h
    (broadcastInDim S1000000x1 ![0] bcast_S1000000_S1000000x1_0
      (select (cmpi .slt (srcIds (F := F) ei) (broadcastInDim S1000000 ![] bcast_S_S1000000 (constantI S_ 32 0#32)))
        (addi (srcIds (F := F) ei) (broadcastInDim S1000000 ![] bcast_S_S1000000 (constantI S_ 32 100000#32)))
        (srcIds (F := F) ei)))

/-- The messages summed into their destination nodes, each node's sum divided by the larger of its edge count and
    one, then the ramp. -/
def meanRelu (ei : (⟨S2x1000000, .i32⟩ : BufTy).Contents (Elt F)) (msg : (⟨S1000000x64, .f32⟩ : BufTy).Contents (Elt F)) : (⟨S100000x64, .f32⟩ : BufTy).Contents (Elt F) :=
  maximumf (Host.divf
      (Host.scatterAdd scatter_S100000x64_S1000000x1_S1000000x64_1_0_0_1
        (broadcastInDim S100000x64 ![] bcast_S_S100000x64 (constant S_ .f32 0x00000000#32))
        (broadcastInDim S1000000x1 ![0] bcast_S1000000_S1000000x1_0 (dstIds (F := F) ei)) msg)
      (broadcastInDim S100000x64 ![0, 1] bcast_S100000x1_S100000x64_0_1 (broadcastInDim S100000x1 ![0] bcast_S100000_S100000x1_0
        (maximumf (Host.scatterAdd scatter_S100000_S1000000x1_S1000000_n_0_0_1
            (broadcastInDim S100000 ![] bcast_S_S100000 (constant S_ .f32 0x00000000#32))
            (broadcastInDim S1000000x1 ![0] bcast_S1000000_S1000000x1_0 (dstIds (F := F) ei))
            (broadcastInDim S1000000 ![] bcast_S_S1000000 (constant S_ .f32 0x3F800000#32)))
          (broadcastInDim S100000 ![] bcast_S_S100000 (constant S_ .f32 0x3F800000#32))))))
    (broadcastInDim S100000x64 ![] bcast_S_S100000x64 (constant S_ .f32 0x00000000#32))

/-- The messages: gathered rows joined with the edge attribute, times the weight, plus the bias, then the ramp. -/
def messages (xs : (⟨S1000000x64, .f32⟩ : BufTy).Contents (Elt F)) (ea : (⟨S1000000, .f32⟩ : BufTy).Contents (Elt F)) (w : (⟨S65x64, .f32⟩ : BufTy).Contents (Elt F))
    (b : (⟨S64, .f32⟩ : BufTy).Contents (Elt F)) : (⟨S1000000x64, .f32⟩ : BufTy).Contents (Elt F) :=
  maximumf (addf
      (Host.dotGeneral dot_S1000000x65_S65x64_S1000000x64_1_0_0_1_n_n none
        (concatenate S1000000x65 1 [⟨S1000000x64, xs⟩, ⟨S1000000x1, (broadcastInDim S1000000x1 ![0] bcast_S1000000_S1000000x1_0 ea)⟩]
          concatenates_S1000000x64_S1000000x1_S1000000x65_d1) w)
      (broadcastInDim S1000000x64 ![0, 1] bcast_S1x64_S1000000x64_0_1 (broadcastInDim S1x64 ![1] bcast_S64_S1x64_1 b)))
    (broadcastInDim S1000000x64 ![] bcast_S_S1000000x64 (constant S_ .f32 0x00000000#32))

/-- One layer. -/
def layer (ei : (⟨S2x1000000, .i32⟩ : BufTy).Contents (Elt F)) (ea : (⟨S1000000, .f32⟩ : BufTy).Contents (Elt F)) (h : (⟨S100000x64, .f32⟩ : BufTy).Contents (Elt F))
    (w : (⟨S65x64, .f32⟩ : BufTy).Contents (Elt F)) (b : (⟨S64, .f32⟩ : BufTy).Contents (Elt F)) : (⟨S100000x64, .f32⟩ : BufTy).Contents (Elt F) :=
  meanRelu ei (messages (srcRows ei h) ea w b)

set_option maxRecDepth 8192 in
/-- The reference's result is the layer applied twice. -/
theorem res_eq (m : (ℓ : Loc nD τ sig) → Buf (Elt F) ℓ) (c : Dev nD) :
    Value.res_main_v61 m c
      = layer (m ((c.tc : Thread nD τ).loc main_arg1)) (m ((c.tc : Thread nD τ).loc main_arg2))
          (layer (m ((c.tc : Thread nD τ).loc main_arg1)) (m ((c.tc : Thread nD τ).loc main_arg2))
            (m ((c.tc : Thread nD τ).loc main_arg0)) (m ((c.tc : Thread nD τ).loc main_arg3)) (m ((c.tc : Thread nD τ).loc main_arg4)))
          (m ((c.tc : Thread nD τ).loc main_arg5)) (m ((c.tc : Thread nD τ).loc main_arg6)) := by
  unfold Value.res_main_v61 layer meanRelu messages srcRows srcIds dstIds
  rfl

end Cert.ReferenceIdeal.Layer

end
-- ==== Proof.Bridge.lean ====
/-
  The kernel program's layer is the reference's layer.

  The two programs gather and scatter with the same host operations, so those stages agree by their spelling. The
  messages agree entry by entry: the reference contracts the 65 columns of the joined row (64 gathered features, then
  the edge attribute) against the 65 rows of the weight, and a sum over 65 terms is the sum of the first 64 plus the
  last; the first 64 terms are the launch's matrix product against the weight's first 64 rows, the last is the edge
  attribute times the weight's last row. Only commutativity and associativity of addition are used, which hold on the
  extended reals at every value.
-/
import proofs.«142209_j34368328303045_1_alg».proof.Proof.KernelLayer
import proofs.«142209_j34368328303045_1_alg».proof.Proof.RefLayer
import proofs.«142209_j34368328303045_1_alg».proof.Proof.LibPlainDot
import Idealize.ShloMosaic.Lib.ValueLayout
import Idealize.ShloMosaic.Lib.Pipeline.Value

noncomputable section

namespace Cert.Bridge

open Idealize.ShloMosaic Idealize.ShloMosaic.ValueIdx

/-! ## The shared stages -/

/-- The gather of source rows is the same operation in both programs. -/
theorem srcRows_eq (ei : (⟨Cert.KernelIdeal.S2x1000000, .i32⟩ : BufTy).Contents (Elt Ideal))
    (h : (⟨Cert.KernelIdeal.S100000x64, .f32⟩ : BufTy).Contents (Elt Ideal)) :
    Cert.KernelIdeal.Layer.srcRows (F := Ideal) ei h = Cert.ReferenceIdeal.Layer.srcRows (F := Ideal) ei h := rfl

/-- The scatter-mean and ramp are the same operations in both programs. -/
theorem meanRelu_eq (ei : (⟨Cert.KernelIdeal.S2x1000000, .i32⟩ : BufTy).Contents (Elt Ideal))
    (msg : (⟨Cert.KernelIdeal.S1000000x64, .f32⟩ : BufTy).Contents (Elt Ideal)) :
    Cert.KernelIdeal.Layer.meanRelu (F := Ideal) ei msg = Cert.ReferenceIdeal.Layer.meanRelu (F := Ideal) ei msg := rfl

/-! ## The operands of a launch, read at an entry -/

section Operands
open Cert.KernelIdeal Cert.KernelIdeal.Gen

/-- The edge attribute as a column: entry (p, 0) is the attribute of edge p. -/
theorem ea_col (ea : (⟨1, ![1000000]⟩ : Shape).Idx → EReal) (p : Fin 1000000) :
    shapeCast S1000000x1 ea shapeCasts_S1000000_S1000000x1 (ix2 p (0 : Fin 1)) = ea (ix1 p) :=
  shapeCast_apply ea _ _ _ (by
    rw [Shape.rowMajor_val_two, Shape.rowMajor_val_one]
    show p.val = p.val * 1 + 0
    omega)

/-- The weight's first 64 rows. -/
theorem w_top (w : (⟨2, ![65, 64]⟩ : Shape).Idx → EReal) (k : Fin 64) (q : Fin 64) :
    extractStridedSlice S64x64 ![0, 0] w slices_S65x64_S64x64_0_0 (ix2 k q) = w (ix2 k.castSucc q) :=
  slice2_axis0_apply 0 w _ k q k.castSucc (by show k.val = 0 + k.val; omega)

/-- The weight's last row. -/
theorem w_last (w : (⟨2, ![65, 64]⟩ : Shape).Idx → EReal) (q : Fin 64) :
    extractStridedSlice S1x64 ![64, 0] w slices_S65x64_S1x64_64_0 (ix2 (0 : Fin 1) q) = w (ix2 (Fin.last 64) q) :=
  slice2_axis0_apply 64 w _ (0 : Fin 1) q (Fin.last 64) rfl

/-- The bias as a row. -/
theorem b_row (b : (⟨1, ![64]⟩ : Shape).Idx → EReal) (q : Fin 64) :
    shapeCast S1x64 b shapeCasts_S64_S1x64 (ix2 (0 : Fin 1) q) = b (ix1 q) :=
  shapeCast_a_1a_apply b _ 0 q

end Operands

/-! ## The reference's operands, read at an entry -/

section RefOperands
open Cert.ReferenceIdeal Cert.ReferenceIdeal.Gen

/-- The reference's contraction is the plain rows-by-columns one. -/
theorem dot_plain : dot_S1000000x65_S65x64_S1000000x64_1_0_0_1_n_n = DotDims.plain 1000000 65 64 := rfl

/-- A joined row's first 64 columns are the gathered features. -/
theorem cat_left (xs : S1000000x64.Idx → EReal) (col : S1000000x1.Idx → EReal) (p : Fin 1000000) (k : Fin 64) :
    concatenate S1000000x65 1 [⟨S1000000x64, xs⟩, ⟨S1000000x1, col⟩] concatenates_S1000000x64_S1000000x1_S1000000x65_d1
      (ix2 p k.castSucc) = xs (ix2 p k) :=
  concatenate_pair_apply_left 1 xs col _ (ix2 p k.castSucc) rfl (ix2 p k) (fun b => match b with
    | ⟨0, _⟩ => rfl
    | ⟨1, _⟩ => rfl)

/-- A joined row's 65th column is the second piece's one column. -/
theorem cat_right (xs : S1000000x64.Idx → EReal) (col : S1000000x1.Idx → EReal) (p : Fin 1000000) :
    concatenate S1000000x65 1 [⟨S1000000x64, xs⟩, ⟨S1000000x1, col⟩] concatenates_S1000000x64_S1000000x1_S1000000x65_d1
      (ix2 p (Fin.last 64)) = col (ix2 p (0 : Fin 1)) :=
  concatenate_pair_apply_right 1 xs col _ (ix2 p (Fin.last 64)) rfl rfl (ix2 p (0 : Fin 1))
    (fun b hb => match b, hb with
      | ⟨0, _⟩, _ => rfl
      | ⟨1, _⟩, hb => absurd rfl hb)
    rfl

/-- The edge attribute spread to a column. -/
theorem ea_spread (ea : S1000000.Idx → EReal) (p : Fin 1000000) :
    broadcastInDim S1000000x1 ![0] bcast_S1000000_S1000000x1_0 ea (ix2 p (0 : Fin 1)) = ea (ix1 p) :=
  broadcastInDim_apply ![0] _ ea (ix2 p (0 : Fin 1)) (ix1 p) (fun a => match a with
    | ⟨0, _⟩ => by
      show p.val = if (1000000 : Nat) = 1 then 0 else p.val
      rw [if_neg (by decide)])

/-- The bias spread over the rows. -/
theorem b_spread (b : S64.Idx → EReal) (p : Fin 1000000) (q : Fin 64) :
    broadcastInDim S1000000x64 ![0, 1] bcast_S1x64_S1000000x64_0_1 (broadcastInDim S1x64 ![1] bcast_S64_S1x64_1 b) (ix2 p q)
      = b (ix1 q) := by
  refine (broadcastInDim_apply ![0, 1] _ _ (ix2 p q) (ix2 (0 : Fin 1) q) (fun a => match a with
    | ⟨0, _⟩ => rfl
    | ⟨1, _⟩ => by
      show q.val = if (64 : Nat) = 1 then 0 else q.val
      rw [if_neg (by decide)])).trans ?_
  exact broadcastInDim_apply ![1] _ b (ix2 (0 : Fin 1) q) (ix1 q) (fun a => match a with
    | ⟨0, _⟩ => by
      show q.val = if (64 : Nat) = 1 then 0 else q.val
      rw [if_neg (by decide)])

/-- The zero the ramp compares against. -/
theorem zero_spread (p : Fin 1000000) (q : Fin 64) :
    broadcastInDim S1000000x64 ![] bcast_S_S1000000x64 (constant (F := Ideal) S_ .f32 0x00000000#32) (ix2 p q)
      = Ideal.ofBits .f32 0x00000000#32 :=
  broadcastInDim_apply ![] _ _ (ix2 p q) ix0 (fun a => a.elim0)

end RefOperands

/-! ## The messages -/

/-- The messages a launch leaves are the reference's messages. -/
theorem messages_eq (xs : (⟨Cert.KernelIdeal.S1000000x64, .f32⟩ : BufTy).Contents (Elt Ideal))
    (ea : (⟨Cert.KernelIdeal.S1000000, .f32⟩ : BufTy).Contents (Elt Ideal))
    (w : (⟨Cert.KernelIdeal.S65x64, .f32⟩ : BufTy).Contents (Elt Ideal))
    (b : (⟨Cert.KernelIdeal.S64, .f32⟩ : BufTy).Contents (Elt Ideal)) :
    Cert.KernelIdeal.Layer.messages xs ea w b = Cert.ReferenceIdeal.Layer.messages (F := Ideal) xs ea w b := by
  funext j
  obtain ⟨p, q, rfl⟩ : ∃ (p : Fin 1000000) (q : Fin 64), j = ix2 p q := ⟨j 0, j 1, eq_ix2 j⟩
  unfold Cert.KernelIdeal.Layer.messages Cert.ReferenceIdeal.Layer.messages
  rw [Cert.Layer.message_apply, ea_col, w_last, b_row]
  simp only [w_top]
  rw [maximumf_apply, addf_apply, b_spread, zero_spread]
  simp only [Host.dotGeneral]
  rw [dot_plain, Cert.Lib.PlainDot.dotGeneral_apply 1000000 65 64, Fin.sum_univ_castSucc (n := 64), cat_right, ea_spread]
  simp only [cat_left]

/-- One layer of the kernel program is one layer of the reference, on any input. -/
theorem layer_eq (ei : (⟨Cert.KernelIdeal.S2x1000000, .i32⟩ : BufTy).Contents (Elt Ideal))
    (ea : (⟨Cert.KernelIdeal.S1000000, .f32⟩ : BufTy).Contents (Elt Ideal))
    (h : (⟨Cert.KernelIdeal.S100000x64, .f32⟩ : BufTy).Contents (Elt Ideal))
    (w : (⟨Cert.KernelIdeal.S65x64, .f32⟩ : BufTy).Contents (Elt Ideal))
    (b : (⟨Cert.KernelIdeal.S64, .f32⟩ : BufTy).Contents (Elt Ideal)) :
    Cert.KernelIdeal.Layer.layer ei ea h w b = Cert.ReferenceIdeal.Layer.layer (F := Ideal) ei ea h w b := by
  unfold Cert.KernelIdeal.Layer.layer Cert.ReferenceIdeal.Layer.layer
  rw [messages_eq, srcRows_eq, meanRelu_eq]

end Cert.Bridge

end
-- ==== Proof.lean ====
/-
  Two layers of a mean-aggregating graph network, the kernel program against its reference, over the extended reals.

  Each layer gathers the source nodes' rows, forms one message per edge, and averages the messages at each
  destination node. The kernel program forms the messages in a launch of 125 row blocks (a 64-wide matrix product
  plus the edge attribute times the weight's last row plus the bias, then the ramp); the reference forms them by a
  65-wide product over the gathered row joined with the edge attribute. Everything around the messages is the same
  host arithmetic in both programs.

  The frames of the two kernel programs are the generated ones; the reference's frame is its generated run. The
  idealization rewrote nothing. For the value claim, the kernel program's run is the frame's launch read with the
  result array kept, its buffers followed boundary by boundary to "the layer applied twice" (KernelLayer, KernelLayer2), the
  launches' output arrays being the message function of their operand arrays (Region0, Region1, KernelBlock); the
  reference's generated result term is its own layer applied twice (RefLayer); and the two layers are one function
  (Bridge: the 65-term sum is the 64-term sum plus its last term).
-/
import proofs.«142209_j34368328303045_1_alg».proof.Defs
import proofs.«142209_j34368328303045_1_alg».proof.Proof.Gen.Kernel
import proofs.«142209_j34368328303045_1_alg».proof.Proof.Gen.Kernel.Frame
import proofs.«142209_j34368328303045_1_alg».proof.Proof.Gen.KernelIdeal
import proofs.«142209_j34368328303045_1_alg».proof.Proof.Gen.KernelIdeal.Frame
import proofs.«142209_j34368328303045_1_alg».proof.Proof.Gen.ReferenceIdeal
import proofs.«142209_j34368328303045_1_alg».proof.Proof.Gen.ReferenceIdeal.Run
import proofs.«142209_j34368328303045_1_alg».proof.Proof.Gen.Pre_finite_inputs
import proofs.«142209_j34368328303045_1_alg».proof.Proof.KernelRun
import proofs.«142209_j34368328303045_1_alg».proof.Proof.KernelLayer
import proofs.«142209_j34368328303045_1_alg».proof.Proof.KernelLayer2
import proofs.«142209_j34368328303045_1_alg».proof.Proof.RefLayer
import proofs.«142209_j34368328303045_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer applied twice to the arguments, which agree. -/
theorem algebraic : Cert.algebraic_KernelIdeal_ReferenceIdeal := by
  intro m ρ m' ρ' _ hagree
  refine ⟨fun c => Cert.KernelIdeal.Layer.layer (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (Cert.KernelIdeal.Layer.layer (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Layer.W8_v57 m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Layer.res_eq, (hagree c).1, (hagree c).2.1, (hagree c).2.2.1, (hagree c).2.2.2.1,
      (hagree c).2.2.2.2.1, (hagree c).2.2.2.2.2.1, (hagree c).2.2.2.2.2.2]
    show _ = Cert.KernelIdeal.Layer.layer _ _ (Cert.KernelIdeal.Layer.layer _ _ _ _ _) _ _
    rw [Cert.Bridge.layer_eq, Cert.Bridge.layer_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
